-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S512x1 : Shape := ⟨2, ![512, 1]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S200000x512 .f32) (main_arg1 : FVec F S512x1 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S200000x512 : Shape := ⟨2, ![200000, 512]⟩
abbrev S512x1 : Shape := ⟨2, ![512, 1]⟩
abbrev S512 : Shape := ⟨1, ![512]⟩
abbrev S1x512 : Shape := ⟨2, ![1, 512]⟩
abbrev S4000x512 : Shape := ⟨2, ![4000, 512]⟩

abbrev nBuf : Space → Nat
  | .hbm => 5
  | .vmem => 5
  | .smem => 0
  | _ => 0

abbrev bufTy : (tb : Table) → Fin (tcTables nBuf tb) → BufTy
  | .hbm, ⟨0, _⟩ => ⟨S200000x512, .f32⟩
  | .hbm, ⟨1, _⟩ => ⟨S512x1, .f32⟩
  | .hbm, ⟨2, _⟩ => ⟨S512, .f32⟩
  | .hbm, ⟨3, _⟩ => ⟨S1x512, .f32⟩
  | .hbm, ⟨4, _⟩ => ⟨S200000x512, .f32⟩
  | .local _ .vmem, ⟨0, _⟩ => ⟨S4000x512, .f32⟩
  | .local _ .vmem, ⟨1, _⟩ => ⟨S4000x512, .f32⟩
  | .local _ .vmem, ⟨2, _⟩ => ⟨S1x512, .f32⟩
  | .local _ .vmem, ⟨3, _⟩ => ⟨S4000x512, .f32⟩
  | .local _ .vmem, ⟨4, _⟩ => ⟨S4000x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x1_S512 : S512x1.ShapeCasts S512
  bcast_S512_S1x512_1 : S512.BroadcastsInDim S1x512 (![1] : Fin 1 → Fin S1x512.rank)
  inb_S4000x512_S4000x512_0_0 : ∀ a, (![0, 0] : Fin 2 → Nat) a + S4000x512.size a ≤ S4000x512.size a
  h_S4000x512 : 0 < S4000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S200000x512.size a
  hwx0_0 : ∀ i : grid0.Coords, EltTy.bits .f32 = 32 ∨ (Rect.block (s := S200000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S200000x512.size a
  hwx0_2 : ∀ i : grid0.Coords, EltTy.bits .f32 = 32 ∨ (Rect.block (s := S200000x512) S4000x512.size (cc0_transform_2 i) (hinb0_2 i)).WholeWords (EltTy.packing .f32)

variable [Facts₀]

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x512 : Shape := ⟨2, ![200000, 512]⟩
abbrev S512x1 : Shape := ⟨2, ![512, 1]⟩
abbrev S512 : Shape := ⟨1, ![512]⟩
abbrev S1x512 : Shape := ⟨2, ![1, 512]⟩

abbrev nBuf : Space → Nat
  | .hbm => 6
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S512x1, .f32⟩
  | .hbm, ⟨2, _⟩ => ⟨S512, .f32⟩
  | .hbm, ⟨3, _⟩ => ⟨S1x512, .f32⟩
  | .hbm, ⟨4, _⟩ => ⟨S200000x512, .f32⟩
  | .hbm, ⟨5, _⟩ => ⟨S200000x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S512x1_S512 : S512x1.ShapeCasts S512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)

variable [Facts₀]

class Facts : Prop extends Facts₀ where

variable [Facts]
-- ==== Proof.ColumnScale.lean ====
/-
  The mathematics both programs compute: a 200000 × 512 matrix scaled column by column.
  Entry (r, j) of the result is x(r, j) · w(j, 0), where w is a 512 × 1 column of weights.
  Stated index by index over any float interpretation; nothing about either program is used here.
-/
import Idealize.ShloMosaic.PureOps.Ideal
import Idealize.ShloMosaic.Lib.ValueIdx

noncomputable section

namespace Cert.ColumnScale

open Idealize.ShloMosaic

variable {F : FTy → Type} [FloatOps F]

/-- The matrix: 200000 rows of 512 entries. -/
abbrev Mat : Shape := ⟨2, ![200000, 512]⟩
/-- The weights: one column of 512 entries. -/
abbrev Wcol : Shape := ⟨2, ![512, 1]⟩

/-- The weight that scales matrix entry (r, j): entry (j, 0) of the column. -/
def weightAt (i : Mat.Idx) : Wcol.Idx := fun a => match a with
  | ⟨0, _⟩ => ⟨(i 1).val, (i 1).isLt⟩
  | ⟨1, _⟩ => ⟨0, Nat.one_pos⟩

theorem weightAt_zero (i : Mat.Idx) : ((weightAt i) 0).val = (i 1).val := rfl
theorem weightAt_one (i : Mat.Idx) : ((weightAt i) 1).val = 0 := rfl

/-- The column-scaled matrix: entry (r, j) is x(r, j) · w(j, 0). -/
def scaled (x : Mat.Idx → Elt F .f32) (w : Wcol.Idx → Elt F .f32) : Mat.Idx → Elt F .f32 :=
  fun i => FloatOps.mulf (x i) (w (weightAt i))

theorem scaled_apply (x : Mat.Idx → Elt F .f32) (w : Wcol.Idx → Elt F .f32) (i : Mat.Idx) :
    scaled x w i = FloatOps.mulf (x i) (w (weightAt i)) := rfl

/-- Two weight-column indices with the same row are the same index (the column has one entry per row). -/
theorem wcol_ext (k k' : Wcol.Idx) (h : (k 0).val = (k' 0).val) : k = k' := by
  funext a
  apply Fin.ext
  match a with
  | ⟨0, _⟩ => exact h
  | ⟨1, _⟩ =>
    have h1 : (k 1).val < 1 := (k 1).isLt
    have h2 : (k' 1).val < 1 := (k' 1).isLt
    show (k 1).val = (k' 1).val
    omega

end Cert.ColumnScale

end
-- ==== Proof.KernelScaled.lean ====
/-
  The kernel computes the column-scaled matrix. Before the grid runs, the 512 × 1 weight column is reshaped
  to a vector and laid out as one row of 512. The grid has 50 points; point t takes rows 4000·t … 4000·t + 3999
  of x as a 4000 × 512 block, takes the whole weight row, repeats the row down the block and multiplies entry
  by entry, and writes the product back as the same rows of the result. So entry (y₀, y₁) of point t's block is
  x(4000·t + y₀, y₁) · w(y₁, 0), which is the column-scaled matrix at entry (4000·t + y₀, y₁); and row r of the
  result lies in the block of point r / 4000, so the 50 blocks fill the whole result.
-/
import proofs.«179124_j35871566856221_1_alg».proof.Proof.Gen.KernelIdeal.Value
import proofs.«179124_j35871566856221_1_alg».proof.Proof.ColumnScale
import Idealize.ShloMosaic.Lib.Pipeline.Value
import Idealize.ShloMosaic.Lib.StableHlo.Run
import Idealize.ShloMosaic.Lib.Tactic

noncomputable section

namespace Cert.KernelIdeal.Scaled

open Cert.KernelIdeal Cert.KernelIdeal.Gen Cert.KernelIdeal.Value Cert.ColumnScale
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## One block -/

theorem zero_offsets : (![0, 0] : Fin 2 → Nat) = fun _ => 0 := funext fun a => by fin_cases a <;> rfl

/-- What the body leaves in the output block, entry by entry: the x block's entry times the weight row's entry
    in the same column. -/
theorem block_apply (x0 : Vec F S4000x512 .f32) (x1 : Vec F S1x512 .f32) (y : S4000x512.Idx) :
    out0_2 x0 x1 y = FloatOps.mulf (x0 y) (x1 (ix2_1 y)) := by
  unfold out0_2
  rw [canon2_eq]
  show FloatOps.mulf (View.ld x0 r0_0 (ix2_0 y)) (View.ld x1 r0_1 (ix2_1 y)) = _
  rw [View.ld_unit_zero (S := S4000x512) zero_offsets, View.ld_unit_zero (S := S1x512) zero_offsets]
  have e : ix2_0 y = y := by
    funext a; apply Fin.ext
    match a with
    | ⟨0, _⟩ => rfl
    | ⟨1, _⟩ => rfl
  rw [e]

/-! ## The weight row as the grid finds it -/

/-- The row the grid reads is the reshaped weight column laid out as one row. -/
theorem row_eq (c : Dev nD) :
    (V m c main_v1 : S1x512.Idx → Elt F .f32)
      = broadcastInDim S1x512 ![1] bcast_S512_S1x512_1 (shapeCast S512 (m ((c : Thread nD τ).loc main_arg1)) shapeCasts_S512x1_S512) := by
  dsimp only [V, hostOps0]
  after_results
  rfl

/-- Entry (0, j) of that row is weight (j, 0). -/
theorem row_apply (c : Dev nD) (k : S1x512.Idx) (k' : S512x1.Idx) (h : (k' 0).val = (k 1).val) :
    (V m c main_v1 : S1x512.Idx → Elt F .f32) k = (m ((c : Thread nD τ).loc main_arg1) : S512x1.Idx → Elt F .f32) k' := by
  rw [row_eq]
  refine (broadcastInDim_apply _ bcast_S512_S1x512_1 _ k (fun a => match a with | ⟨0, _⟩ => ⟨(k 1).val, (k 1).isLt⟩ : S512.Idx)
    (fun a => match a with
      | ⟨0, _⟩ => by show (k 1).val = if (512 : Nat) = 1 then 0 else (k 1).val; rw [if_neg (by decide)])).trans ?_
  refine shapeCast_apply _ shapeCasts_S512x1_S512 _ k' ?_
  rewrite [Shape.rowMajor_val_two, Shape.rowMajor_val_one]
  have h1 : (k' 1).val < 1 := (k' 1).isLt
  show (k' 0).val * 1 + (k' 1).val = (k 1).val
  omega

/-! ## Where the blocks sit -/

/-- The printed index maps over the 50 points: x and the result move one block of rows per point, the weight
    row stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of the column-scaled matrix. -/
theorem flushed_eq (c : Dev nD) (t : Fin cfg0.N) :
    (dats m 0 c).flushed 2 t
      = ((cfg0.win 2).blk t).view.read (Elt F) (scaled (m ((c : Thread nD τ).loc main_arg0)) (m ((c : Thread nD τ).loc main_arg1))) := by
  rw [flushed2]
  obtain ⟨e0, e1, e2, e3, e4, e5⟩ := index_facts t
  funext j
  have hj0 : (j 0).val < 4000 := (j 0).isLt
  have hj1 : (j 1).val < 512 := (j 1).isLt
  show out0_2 (iblk m c 0 t) (iblk m c 1 t) j = scaled (m ((c : Thread nD τ).loc main_arg0)) (m ((c : Thread nD τ).loc main_arg1)) (((cfg0.win 2).blk t).view.emb j)
  refine (block_apply _ _ j).trans ?_
  rw [scaled_apply, ← V_main_arg0 m c]
  show FloatOps.mulf (V m c main_arg0 (((cfg0.win 0).blk t).view.emb j)) (V m c main_v1 (((cfg0.win 1).blk t).view.emb (ix2_1 j)))
     = FloatOps.mulf (V m c main_arg0 (((cfg0.win 2).blk t).view.emb j)) (m ((c : Thread nD τ).loc main_arg1) (weightAt (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * (j 1).val = win0_2.index t (1 : Fin 2) * 512 + 1 * (j 1).val; omega
  have h1 : V m c main_v1 (((cfg0.win 1).blk t).view.emb (ix2_1 j))
      = m ((c : Thread nD τ).loc main_arg1) (weightAt (((cfg0.win 2).blk t).view.emb j)) := by
    refine row_apply m c _ _ ?_
    show (((cfg0.win 2).blk t).view.emb j 1).val = (((cfg0.win 1).blk t).view.emb (ix2_1 j) 1).val
    show win0_2.index t (1 : Fin 2) * 512 + 1 * (j 1).val = win0_1.index t (1 : Fin 2) * 512 + 1 * (j 1).val
    omega
  rw [h0, h1]

/-- An entry of the result lies in point `t`'s block exactly when each coordinate lies in the block's range. -/
theorem mem_blk (t : Fin cfg0.N) (i : S200000x512.Idx) :
    i ∈ ((cfg0.win 2).blk t).view.set ↔ ∀ a : Fin 2, win0_2.index t a * S4000x512.size a ≤ (i a).val ∧ (i a).val < win0_2.index t a * S4000x512.size a + S4000x512.size a := by
  show i ∈ ((View.whole main_v2).slice (win0_2.rect t)).set ↔ _
  rw [View.set_slice_whole, Rect.mem_set_unit]
  exact Iff.rfl

/-- Row r of the result lies in the block of point r / 4000: the blocks fill the result. -/
theorem cover (i : S200000x512.Idx) :
    ∃ t : Fin cfg0.N, (cfg0.win 2).flush t = true ∧ i ∈ ((cfg0.win 2).blk t).view.set := by
  have hi0 : (i 0).val < 200000 := (i 0).isLt
  have hi1 : (i 1).val < 512 := (i 1).isLt
  have hN : grid0.N = 50 := N_0
  have ht : (i 0).val / 4000 < cfg0.N := lt_of_lt_of_eq (by omega : (i 0).val / 4000 < 50) hN.symm
  obtain ⟨-, -, -, -, e4, e5⟩ := index_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 512 ≤ (i 1).val ∧ (i 1).val < win0_2.index ⟨(i 0).val / 4000, ht⟩ (1 : Fin 2) * 512 + 512
    rw [e5]
    omega

/-! ## The whole result and the run -/

/-- After the last point the result array holds the column-scaled matrix of the two arguments. -/
theorem final (c : Dev nD) :
    (dats m 0 c).arrAt 2 cfg0.N = scaled (m ((c : Thread nD τ).loc main_arg0)) (m ((c : Thread nD τ).loc main_arg1)) :=
  (dats m 0 c).arrAt_eq_of_cover 2 _ (fun t _ => flushed_eq m c t) cover

/-- Every weakly fair execution of the kernel's program ends with the result at the column-scaled matrix and
    the arguments as they were. -/
theorem run : θ_run defs (onTc (τ := τ) (main (F := F))) ⟨m, fun _ => 0, ρ⟩ fun r => ∀ c : Dev nD,
      r.2.mem ((c : Thread nD τ).loc main_v2) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scaled

end
-- ==== Proof.ReferenceScaled.lean ====
/-
  The reference computes the column-scaled matrix. Its program reshapes the 512 × 1 weight column to a
  vector of 512, lays that out as one row, repeats the row down all 200000 rows, and multiplies entry by
  entry with x. Read at entry (r, j) through the three layout steps, the repeated row holds w(j, 0); so the
  product there is x(r, j) · w(j, 0).
-/
import proofs.«179124_j35871566856221_1_alg».proof.Proof.Gen.ReferenceIdeal.Read
import proofs.«179124_j35871566856221_1_alg».proof.Proof.ColumnScale

noncomputable section

namespace Cert.ReferenceIdeal.Scaled

open Cert.ReferenceIdeal Cert.ReferenceIdeal.Read Cert.ColumnScale Idealize.ShloMosaic

variable {F : FTy → Type} [FloatOps F]

/-- Following entry (r, j) back through the repeat, the row layout and the reshape lands on weight (j, 0). -/
theorem weight_index (i : S200000x512.Idx) :
    idx_main_v0 (idx_main_v1 (idx_main_v2 i)) = weightAt i := by
  refine wcol_ext _ _ ?_
  show (i 1).val / 1 = (i 1).val
  omega

/-- The reference's last stage is the column-scaled matrix of its two arguments. -/
theorem stage_eq (x : (⟨S200000x512, .f32⟩ : BufTy).Contents (Elt F)) (w : (⟨S512x1, .f32⟩ : BufTy).Contents (Elt F)) :
    val_main_v3 (F := F) x w = scaled x w := by
  funext i
  rw [val_main_v3_apply, val_main_v2_apply, val_main_v1_apply, val_main_v0_apply, weight_index, scaled_apply]

end Cert.ReferenceIdeal.Scaled

end
-- ==== Proof.lean ====
/-
  The kernel scales a 200000 × 512 matrix column by column: entry (r, j) of the result is x(r, j) · w(j, 0).
  It does so 4000 rows at a time over a grid of 50 points, each point multiplying its block of x by the weight
  row; the reference repeats the weight row down all 200000 rows and multiplies once. At the exact instance both
  end at the same function of the arguments (Proof/ColumnScale.lean), entry by entry, with no law beyond reading
  each layout step at an index: the kernel's blocks fill the result (Proof/KernelScaled.lean), and the
  reference's stages compose to the same entry (Proof/ReferenceScaled.lean). Nothing here needs the inputs
  to be finite. The idealization rewrote nothing, so that conjunct is trivial.
-/
import proofs.«179124_j35871566856221_1_alg».proof.Defs
import proofs.«179124_j35871566856221_1_alg».proof.Proof.Gen.Kernel
import proofs.«179124_j35871566856221_1_alg».proof.Proof.Gen.Kernel.Skeleton
import proofs.«179124_j35871566856221_1_alg».proof.Proof.Gen.Kernel.Launch
import proofs.«179124_j35871566856221_1_alg».proof.Proof.Gen.Kernel.Points
import proofs.«179124_j35871566856221_1_alg».proof.Proof.Gen.Kernel.Frame
import proofs.«179124_j35871566856221_1_alg».proof.Proof.Gen.KernelIdeal
import proofs.«179124_j35871566856221_1_alg».proof.Proof.Gen.KernelIdeal.Skeleton
import proofs.«179124_j35871566856221_1_alg».proof.Proof.Gen.KernelIdeal.Launch
import proofs.«179124_j35871566856221_1_alg».proof.Proof.Gen.KernelIdeal.Points
import proofs.«179124_j35871566856221_1_alg».proof.Proof.Gen.KernelIdeal.Frame
import proofs.«179124_j35871566856221_1_alg».proof.Proof.Gen.ReferenceIdeal
import proofs.«179124_j35871566856221_1_alg».proof.Proof.Gen.Pre_finite_inputs
import proofs.«179124_j35871566856221_1_alg».proof.Proof.Gen.KernelIdeal.Value
import proofs.«179124_j35871566856221_1_alg».proof.Proof.Gen.ReferenceIdeal.Run
import proofs.«179124_j35871566856221_1_alg».proof.Proof.Gen.ReferenceIdeal.Read
import proofs.«179124_j35871566856221_1_alg».proof.Proof.ColumnScale
import proofs.«179124_j35871566856221_1_alg».proof.Proof.KernelScaled
import proofs.«179124_j35871566856221_1_alg».proof.Proof.ReferenceScaled
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the column-scaled matrix of arguments that agree. -/
theorem algebraic : Cert.algebraic_KernelIdeal_ReferenceIdeal := by
  intro m ρ m' ρ' _ hagree
  refine ⟨fun c => Cert.ColumnScale.scaled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Scaled.stage_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
